-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000x64 : Shape := ⟨2, ![800000, 64]⟩
abbrev S256x96 : Shape := ⟨2, ![256, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S256x96 : S_.BroadcastsInDim S256x96 (![] : Fin 0 → Fin S256x96.rank)
  reducesTo_S256x96_S_d0_1 : S256x96.ReducesTo [0, 1] S_
  bcast_S_S96 : S_.BroadcastsInDim S96 (![] : Fin 0 → Fin S96.rank)
  reducesTo_S96_S_d0 : S96.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_v28 : IVec S_ 1) (main_v33 : IVec S2x800000 1) : IVec S_ 1 :=
  let main_c_12 : IVec S_ 1 := constantI S_ 1 1#1
  let main_v34 : IVec S_ 1 := (fun x v => Host.reduce IntOp.andi x v reducesTo_S2x800000_S_d0_1 h_S_) main_v33 main_c_12
  let main_v35 : IVec S_ 1 := andi main_v28 main_v34
  main_v35

def fn_part1 {F : FTy → Type} [FloatOps F] (main_arg1 : IVec S2x800000 32) (main_arg5 : FVec F S256x96 .f32) (main_arg6 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S256x96 .f32 := Host.absf main_arg5
  let main_cst_6 : FVec F S_ .f32 := constant S_ .f32 0x7F800000#32
  let main_v20 : FVec F S256x96 .f32 := broadcastInDim S256x96 ![] bcast_S_S256x96 main_cst_6
  let main_v21 : IVec S256x96 1 := cmpf .olt main_v19 main_v20
  let main_c_7 : IVec S_ 1 := constantI S_ 1 1#1
  let main_v22 : IVec S_ 1 := (fun x v => Host.reduce IntOp.andi x v reducesTo_S256x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_c_10 : IVec S_ 32 := constantI S_ 32 4294917296#32
  let main_v29 : IVec S2x800000 32 := broadcastInDim S2x800000 ![] bcast_S_S2x800000 main_c_10
  let main_v30 : IVec S2x800000 1 := cmpi .sge main_arg1 main_v29
  let main_c_11 : IVec S_ 32 := constantI S_ 32 50000#32
  let main_v31 : IVec S2x800000 32 := broadcastInDim S2x800000 ![] bcast_S_S2x800000 main_c_11
  let main_v32 : IVec S2x800000 1 := cmpi .slt main_arg1 main_v31
  let main_v33 : IVec S2x800000 1 := andi main_v30 main_v32
  fn_part2 (F := F) main_v28 main_v33

def fn {F : FTy → Type} [FloatOps F] (main_arg0 : FVec F S50000x96 .f32) (main_arg1 : IVec S2x800000 32) (main_arg2 : FVec F S800000x64 .f32) (main_arg3 : FVec F S256x96 .f32) (main_arg4 : FVec F S96 .f32) (main_arg5 : FVec F S256x96 .f32) (main_arg6 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S256x96 .f32 := Host.absf main_arg3
  let main_cst_2 : FVec F S_ .f32 := constant S_ .f32 0x7F800000#32
  let main_v10 : FVec F S256x96 .f32 := broadcastInDim S256x96 ![] bcast_S_S256x96 main_cst_2
  let main_v11 : IVec S256x96 1 := cmpf .olt main_v9 main_v10
  let main_c_3 : IVec S_ 1 := constantI S_ 1 1#1
  let main_v12 : IVec S_ 1 := (fun x v => Host.reduce IntOp.andi x v reducesTo_S256x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg1 main_arg5 main_arg6 main_v13 main_v16
-- ==== Kernel.lean ====
abbrev S50000x96 : Shape := ⟨2, ![50000, 96]⟩
abbrev S2x800000 : Shape := ⟨2, ![2, 800000]⟩
abbrev S800000x64 : Shape := ⟨2, ![800000, 64]⟩
abbrev S256x96 : Shape := ⟨2, ![256, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x96 : Shape := ⟨2, ![800000, 96]⟩
abbrev S3200x96 : Shape := ⟨2, ![3200, 96]⟩
abbrev S3200x64 : Shape := ⟨2, ![3200, 64]⟩
abbrev S3200x256 : Shape := ⟨2, ![3200, 256]⟩
abbrev S1x96 : Shape := ⟨2, ![1, 96]⟩
abbrev S50000 : Shape := ⟨1, ![50000]⟩
abbrev S50000x1 : Shape := ⟨2, ![50000, 1]⟩

abbrev nBuf : Space → Nat
  | .hbm => 76
  | .vmem => 12
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x64, .f32⟩
  | .hbm, ⟨3, _⟩ => ⟨S256x96, .f32⟩
  | .hbm, ⟨4, _⟩ => ⟨S96, .f32⟩
  | .hbm, ⟨5, _⟩ => ⟨S256x96, .f32⟩
  | .hbm, ⟨6, _⟩ => ⟨S96, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x96, .f32⟩
  | .hbm, ⟨30, _⟩ => ⟨S800000x96, .i1⟩
  | .hbm, ⟨31, _⟩ => ⟨S_, .f32⟩
  | .hbm, ⟨32, _⟩ => ⟨S800000x96, .f32⟩
  | .hbm, ⟨33, _⟩ => ⟨S800000x96, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S1, .i32⟩
  | .hbm, ⟨43, _⟩ => ⟨S_, .i32⟩
  | .hbm, ⟨44, _⟩ => ⟨S800000x1, .i32⟩
  | .hbm, ⟨45, _⟩ => ⟨S800000x1, .i1⟩
  | .hbm, ⟨46, _⟩ => ⟨S1x1, .i32⟩
  | .hbm, ⟨47, _⟩ => ⟨S800000x1, .i32⟩
  | .hbm, ⟨48, _⟩ => ⟨S800000x1, .i1⟩
  | .hbm, ⟨49, _⟩ => ⟨S800000x1, .i1⟩
  | .hbm, ⟨50, _⟩ => ⟨S_, .i1⟩
  | .hbm, ⟨51, _⟩ => ⟨S800000, .i1⟩
  | .hbm, ⟨52, _⟩ => ⟨S800000x96, .f32⟩
  | .hbm, ⟨53, _⟩ => ⟨S800000x96, .i1⟩
  | .hbm, ⟨54, _⟩ => ⟨S_, .f32⟩
  | .hbm, ⟨55, _⟩ => ⟨S800000x96, .f32⟩
  | .hbm, ⟨56, _⟩ => ⟨S800000x96, .f32⟩
  | .hbm, ⟨57, _⟩ => ⟨S800000x96, .f32⟩
  | .hbm, ⟨58, _⟩ => ⟨S_, .f32⟩
  | .hbm, ⟨59, _⟩ => ⟨S50000x96, .f32⟩
  | .hbm, ⟨60, _⟩ => ⟨S800000x1, .i32⟩
  | .hbm, ⟨61, _⟩ => ⟨S50000x96, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x96, .f32⟩
  | .hbm, ⟨74, _⟩ => ⟨S50000x96, .f32⟩
  | .hbm, ⟨75, _⟩ => ⟨S50000x96, .f32⟩
  | .local _ .vmem, ⟨0, _⟩ => ⟨S3200x96, .f32⟩
  | .local _ .vmem, ⟨1, _⟩ => ⟨S3200x96, .f32⟩
  | .local _ .vmem, ⟨2, _⟩ => ⟨S3200x96, .f32⟩
  | .local _ .vmem, ⟨3, _⟩ => ⟨S3200x96, .f32⟩
  | .local _ .vmem, ⟨4, _⟩ => ⟨S3200x64, .f32⟩
  | .local _ .vmem, ⟨5, _⟩ => ⟨S3200x64, .f32⟩
  | .local _ .vmem, ⟨6, _⟩ => ⟨S256x96, .f32⟩
  | .local _ .vmem, ⟨7, _⟩ => ⟨S96, .f32⟩
  | .local _ .vmem, ⟨8, _⟩ => ⟨S256x96, .f32⟩
  | .local _ .vmem, ⟨9, _⟩ => ⟨S96, .f32⟩
  | .local _ .vmem, ⟨10, _⟩ => ⟨S3200x96, .f32⟩
  | .local _ .vmem, ⟨11, _⟩ => ⟨S3200x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_cst : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_cst_0 : Ref sig .tc := ⟨.hbm, 62, rfl⟩
abbrev main_v10 : Ref sig .tc := ⟨.hbm, 63, rfl⟩
abbrev main_cst_1 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_cst_2 : Ref sig .tc := ⟨.hbm, 68, rfl⟩
abbrev main_call2_v0 : Ref sig .tc := ⟨.hbm, 69, rfl⟩
abbrev main_call2_v1 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x96_0 : S800000.BroadcastsInDim S800000x96 (![0] : Fin 1 → Fin S800000x96.rank)
  bcast_S_S800000x96 : S_.BroadcastsInDim S800000x96 (![] : Fin 0 → Fin S800000x96.rank)
  inb_S3200x96_S3200x96_0_0 : ∀ a, (![0, 0] : Fin 2 → Nat) a + S3200x96.size a ≤ S3200x96.size a
  h_S3200x96 : 0 < S3200x96.numel
  shapeCasts_S3200x96_S3200x96 : S3200x96.ShapeCasts S3200x96
  inb_S3200x64_S3200x64_0_0 : ∀ a, (![0, 0] : Fin 2 → Nat) a + S3200x64.size a ≤ S3200x64.size a
  h_S3200x64 : 0 < S3200x64.numel
  concatenates_S3200x96_S3200x96_S3200x64_S3200x256_d1 : Shape.Concatenates [S3200x96, S3200x96, S3200x64] S3200x256 1
  bitsLt_bf16_f32 : FTy.bits .bf16 < FTy.bits .f32
  inb_S256x96_S256x96_0_0 : ∀ a, (![0, 0] : Fin 2 → Nat) a + S256x96.size a ≤ S256x96.size a
  h_S256x96 : 0 < S256x96.numel
  inb_S96_S96_0 : ∀ a, (![0] : Fin 1 → Nat) a + S96.size a ≤ S96.size a
  h_S96 : 0 < S96.numel
  shapeCasts_S96_S1x96 : S96.ShapeCasts S1x96
  broadcasts_S1x96_S3200x96 : S1x96.Broadcasts S3200x96
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  dot_S3200x256_S256x96_S3200x96_1_0_0_1_n_n_wf : DotDims.WF S3200x256 S256x96 S3200x96 [1] [0] [0] [1] [] []
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x96.size a ≤ S800000x96.size a
  hwx0_0 : ∀ i : grid0.Coords, EltTy.bits .f32 = 32 ∨ (Rect.block (s := S800000x96) S3200x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x96.size a ≤ S800000x96.size a
  hwx0_1 : ∀ i : grid0.Coords, EltTy.bits .f32 = 32 ∨ (Rect.block (s := S800000x96) S3200x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x64.size a ≤ S800000x64.size a
  hwx0_2 : ∀ i : grid0.Coords, EltTy.bits .f32 = 32 ∨ (Rect.block (s := S800000x64) S3200x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x96.size a ≤ S256x96.size a
  hwx0_3 : ∀ i : grid0.Coords, EltTy.bits .f32 = 32 ∨ (Rect.block (s := S256x96) S256x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96.size a ≤ S96.size a
  hwx0_4 : ∀ i : grid0.Coords, EltTy.bits .f32 = 32 ∨ (Rect.block (s := S96) S96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x96.size a ≤ S256x96.size a
  hwx0_5 : ∀ i : grid0.Coords, EltTy.bits .f32 = 32 ∨ (Rect.block (s := S256x96) S256x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S96.size a ≤ S96.size a
  hwx0_6 : ∀ i : grid0.Coords, EltTy.bits .f32 = 32 ∨ (Rect.block (s := S96) S96.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x96.size a ≤ S800000x96.size a
  hwx0_7 : ∀ i : grid0.Coords, EltTy.bits .f32 = 32 ∨ (Rect.block (s := S800000x96) S3200x96.size (cc0_transform_7 i) (hinb0_7 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S3200x256_S256x96_S3200x96_1_0_0_1_n_n : DotDims S3200x256 S256x96 S3200x96 where
  lhsContracting := [1]
  rhsContracting := [0]
  lhsNonContracting := [0]
  rhsNonContracting := [1]
  lhsBatch := []
  rhsBatch := []
  wf := dot_S3200x256_S256x96_S3200x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v4) S3200x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3200x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S3200x96.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000x64 : Shape := ⟨2, ![800000, 64]⟩
abbrev S256x96 : Shape := ⟨2, ![256, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S800000x256 : Shape := ⟨2, ![800000, 256]⟩
abbrev S1x96 : Shape := ⟨2, ![1, 96]⟩
abbrev S50000 : Shape := ⟨1, ![50000]⟩
abbrev S50000x1 : Shape := ⟨2, ![50000, 1]⟩

abbrev nBuf : Space → Nat
  | .hbm => 79
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x64, .f32⟩
  | .hbm, ⟨3, _⟩ => ⟨S256x96, .f32⟩
  | .hbm, ⟨4, _⟩ => ⟨S96, .f32⟩
  | .hbm, ⟨5, _⟩ => ⟨S256x96, .f32⟩
  | .hbm, ⟨6, _⟩ => ⟨S96, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x96, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x96, .f32⟩
  | .hbm, ⟨29, _⟩ => ⟨S800000x256, .f32⟩
  | .hbm, ⟨30, _⟩ => ⟨S800000x96, .f32⟩
  | .hbm, ⟨31, _⟩ => ⟨S1x96, .f32⟩
  | .hbm, ⟨32, _⟩ => ⟨S800000x96, .f32⟩
  | .hbm, ⟨33, _⟩ => ⟨S800000x96, .f32⟩
  | .hbm, ⟨34, _⟩ => ⟨S800000x96, .f32⟩
  | .hbm, ⟨35, _⟩ => ⟨S800000x96, .f32⟩
  | .hbm, ⟨36, _⟩ => ⟨S_, .f32⟩
  | .hbm, ⟨37, _⟩ => ⟨S800000x96, .f32⟩
  | .hbm, ⟨38, _⟩ => ⟨S800000x96, .f32⟩
  | .hbm, ⟨39, _⟩ => ⟨S_, .f32⟩
  | .hbm, ⟨40, _⟩ => ⟨S800000x96, .f32⟩
  | .hbm, ⟨41, _⟩ => ⟨S800000x96, .f32⟩
  | .hbm, ⟨42, _⟩ => ⟨S800000x96, .f32⟩
  | .hbm, ⟨43, _⟩ => ⟨S1x96, .f32⟩
  | .hbm, ⟨44, _⟩ => ⟨S800000x96, .f32⟩
  | .hbm, ⟨45, _⟩ => ⟨S800000x96, .f32⟩
  | .hbm, ⟨46, _⟩ => ⟨S_, .f32⟩
  | .hbm, ⟨47, _⟩ => ⟨S800000x96, .f32⟩
  | .hbm, ⟨48, _⟩ => ⟨S800000x96, .f32⟩
  | .hbm, ⟨49, _⟩ => ⟨S800000x96, .f32⟩
  | .hbm, ⟨50, _⟩ => ⟨S800000x96, .f32⟩
  | .hbm, ⟨51, _⟩ => ⟨S800000x96, .i1⟩
  | .hbm, ⟨52, _⟩ => ⟨S800000x96, .f32⟩
  | .hbm, ⟨53, _⟩ => ⟨S800000x96, .f32⟩
  | .hbm, ⟨54, _⟩ => ⟨S800000x96, .f32⟩
  | .hbm, ⟨55, _⟩ => ⟨S800000x96, .f32⟩
  | .hbm, ⟨56, _⟩ => ⟨S800000x96, .f32⟩
  | .hbm, ⟨57, _⟩ => ⟨S800000x96, .f32⟩
  | .hbm, ⟨58, _⟩ => ⟨S800000x96, .f32⟩
  | .hbm, ⟨59, _⟩ => ⟨S800000x96, .f32⟩
  | .hbm, ⟨60, _⟩ => ⟨S800000x96, .f32⟩
  | .hbm, ⟨61, _⟩ => ⟨S_, .f32⟩
  | .hbm, ⟨62, _⟩ => ⟨S50000x96, .f32⟩
  | .hbm, ⟨63, _⟩ => ⟨S800000x1, .i32⟩
  | .hbm, ⟨64, _⟩ => ⟨S50000x96, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x96, .f32⟩
  | .hbm, ⟨77, _⟩ => ⟨S50000x96, .f32⟩
  | .hbm, ⟨78, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_call1_v0 : Ref sig .tc := ⟨.hbm, 72, rfl⟩
abbrev main_call1_v1 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x96_S800000x96_S800000x64_S800000x256_d1 : Shape.Concatenates [S800000x96, S800000x96, S800000x64] S800000x256 1
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  dot_S800000x256_S256x96_S800000x96_1_0_0_1_n_n_wf : DotDims.WF S800000x256 S256x96 S800000x96 [1] [0] [0] [1] [] []
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x256_S256x96_S800000x96_1_0_0_1_n_n : DotDims S800000x256 S256x96 S800000x96 where
  lhsContracting := [1]
  rhsContracting := [0]
  lhsNonContracting := [0]
  rhsNonContracting := [1]
  lhsBatch := []
  rhsBatch := []
  wf := dot_S800000x256_S256x96_S800000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Range.lean ====
/-
  What the precondition says of the edge endpoints.

  Besides the finiteness of the float inputs, the precondition requires every entry of edge_index, both rows, to be a valid
  NumPy row index of the node table h: -50000 ≤ e < 50000. Decoded here from the printed predicate: the last conjunct is
  the reduction by "and" over the whole [2, 800000] array of (e ≥ -50000) and (e < 50000), and a reduction by "and" that
  yields 1 had a 1 at every index.
-/
import proofs.«407372_j32066225832046_1_alg».proof.Pre_finite_inputs
import Idealize.ShloMosaic.Lib.ReduceAll
import Idealize.ShloMosaic.Lib.Affine
import Idealize.ShloMosaic.Lib.ValueIdx

namespace Cert.Range

open Idealize.ShloMosaic Cert.Pre_finite_inputs

instance : Subsingleton S_.Idx := ⟨fun a b => funext fun d => d.elim0⟩

/-- Under the precondition every entry of edge_index lies in [-50000, 50000). -/
theorem index_range {F : FTy → Type} [FloatOps F] [Cert.Pre_finite_inputs.Facts]
    (a0 : FVec F S50000x96 .f32) (a1 : IVec S2x800000 32) (a2 : FVec F S800000x64 .f32) (a3 : FVec F S256x96 .f32)
    (a4 : FVec F S96 .f32) (a5 : FVec F S256x96 .f32) (a6 : FVec F S96 .f32)
    (h : fn (F := F) a0 a1 a2 a3 a4 a5 a6 = fun _ => 1#1) (i : S2x800000.Idx) :
    -50000 ≤ (a1 i).toInt ∧ (a1 i).toInt < 50000 := by
  have h0 := congrFun h ValueIdx.ix0
  dsimp only [fn, fn_part1, fn_part2] at h0
  have h1 := (IntOp.andi_eq_one.1 h0).2
  have h2 := Host.reduce_andi_all _ _ _ _ _ h1 i
  have h3 := IntOp.andi_eq_one.1 h2
  have hge : (4294917296#32 : BitVec 32).toInt ≤ (a1 i).toInt := IntOp.cmpi_sge.1 h3.1
  have hlt : (a1 i).toInt < (50000#32 : BitVec 32).toInt := IntOp.cmpi_slt.1 h3.2
  have e1 : (4294917296#32 : BitVec 32).toInt = -50000 := by decide
  have e2 : (50000#32 : BitVec 32).toInt = 50000 := by decide
  omega

end Cert.Range
-- ==== Proof.Gated.lean ====
/-
  The gated message of one edge, as one function of the arrays both programs read.

  For edge r and feature q, with cat the 256-wide row [h[src r], h[dst r], edge_attr r]:
    zE = sum_k cat[r,k] * W_e[k,q] + b_e[q],   zN = sum_k cat[r,k] * W_n[k,q] + b_n[q],
    gated[r,q] = gate zE * softplus zN,
  where gate z = 1 / (1 + exp (-z)) and softplus z = max z 0 + log1p (exp (-|z - 0|)) behind the source's
  self-comparison guard. Everything is on the extended reals, where a self-comparison "z - 0 differs from z - 0" is never true,
  so the guard always takes the second branch; it is kept as the programs spell it.

  The two elementwise identities proved here: the one-operation logistic of the kernel is the reference's quotient,
  and the kernel's spelling of softplus (ordered self-comparison, negation as 0 - x, the vector unit's abs / exp / log1p)
  is the reference's (unordered self-comparison, negate, the host's abs / exp / log1p).
-/
import Idealize.ShloMosaic.Lib.ValueIdx
import Idealize.ShloMosaic.Lib.KernelVsHost
import Idealize.ShloMosaic.PureOps.Ideal.Laws

noncomputable section

namespace Cert.Gated

open Idealize.ShloMosaic Idealize.ShloMosaic.ValueIdx

/-- The float zero both programs splat, as an extended real. -/
abbrev zeroF : Ideal .f32 := FloatOps.ofBits (F := Ideal) .f32 0x00000000#32
/-- The float one of the reference's quotient. -/
abbrev oneF : Ideal .f32 := FloatOps.ofBits (F := Ideal) .f32 0x3F800000#32

theorem oneF_eq : oneF = 1 := by
  show Ideal.ofBits .f32 0x3F800000#32 = 1
  simp [Ideal.ofBits, Ideal.ieee, -EReal.coe_mul]; norm_num

/-- The gate as the reference spells it: 1 / (1 + exp (-z)). -/
def gate (z : Ideal .f32) : Ideal .f32 :=
  FloatOps.hostDivf oneF (FloatOps.addf oneF (FloatOps.hostUnary .exp (FloatOps.hostNegf z)))

/-- softplus as the reference spells it (jnp's logaddexp of z and 0). -/
def softplus (z : Ideal .f32) : Ideal .f32 :=
  Scalar.select (FloatOps.cmpf .une (FloatOps.subf z zeroF) (FloatOps.subf z zeroF)) (FloatOps.addf z zeroF)
    (FloatOps.addf (FloatOps.maximumf z zeroF)
      (FloatOps.hostUnary .log1p (FloatOps.hostUnary .exp (FloatOps.hostNegf (FloatOps.hostAbsf (FloatOps.subf z zeroF))))))

/-- The kernel's single logistic operation is the reference's quotient. -/
theorem logistic_eq_gate (z : Ideal .f32) : FloatOps.logistic z = gate z := by
  unfold gate
  rw [oneF_eq]
  rfl

/-- The kernel's spelling of softplus is the reference's. -/
theorem kernel_softplus_eq (z : Ideal .f32) :
    Scalar.select (FloatOps.cmpf .one (FloatOps.subf z zeroF) (FloatOps.subf z zeroF)) (FloatOps.addf z zeroF)
      (FloatOps.addf (FloatOps.maximumf z zeroF)
        (FloatOps.log1p (FloatOps.exp (FloatOps.subf zeroF (FloatOps.absf (FloatOps.subf z zeroF))))))
      = softplus z := by
  unfold softplus
  rw [Ideal.subf_zero_eq_hostNegf]
  rfl

/-- The pre-activation of edge r, feature q: row r of the concatenation against column q of the weight, plus the bias. -/
def preAct {n : Nat} (cat : (⟨2, ![n, 256]⟩ : Shape).Idx → EReal) (W : (⟨2, ![256, 96]⟩ : Shape).Idx → EReal)
    (b : (⟨1, ![96]⟩ : Shape).Idx → EReal) (r : Fin n) (q : Fin 96) : EReal :=
  (∑ k : Fin 256, cat (ix2 r k) * W (ix2 k q)) + b (ix1 q)

/-- The gated message of edge r at feature q. -/
def gated {n : Nat} (cat : (⟨2, ![n, 256]⟩ : Shape).Idx → EReal) (We : (⟨2, ![256, 96]⟩ : Shape).Idx → EReal)
    (be : (⟨1, ![96]⟩ : Shape).Idx → EReal) (Wn : (⟨2, ![256, 96]⟩ : Shape).Idx → EReal)
    (bn : (⟨1, ![96]⟩ : Shape).Idx → EReal) (r : Fin n) (q : Fin 96) : EReal :=
  gate (preAct cat We be r q) * softplus (preAct cat Wn bn r q)

end Cert.Gated

end
-- ==== Proof.KernelPay.lean ====
/-
  What the kernel body stores, read at row p and feature q of its [3200, 96] block.

  The body concatenates its three input blocks into a [3200, 256] block, narrows it and the two weights to bf16 (the
  identity on extended reals), multiplies on the matrix unit into a zero accumulator, adds each bias laid along every row,
  and applies the gate and softplus. At (p, q) each product is the sum over the 256 concatenated columns of the block's
  row p against the weight's column q, and the bias term is the bias at q: the stored value is the gated message of
  row p of the concatenated block.
-/
import proofs.«407372_j32066225832046_1_alg».proof.Proof.Gen.KernelIdeal.Skeleton
import proofs.«407372_j32066225832046_1_alg».proof.Proof.Gated
import Idealize.ShloMosaic.Lib.ValueLayout
import Idealize.ShloMosaic.Lib.Pipeline.Value

noncomputable section

namespace Cert.KernelPay

open Cert.KernelIdeal Cert.KernelIdeal.Gen Idealize.ShloMosaic Idealize.ShloMosaic.ValueIdx

/-! ## The block product at an index -/

theorem lhs_dot_0 (i : S3200x96.Idx) (q : dot_S3200x256_S256x96_S3200x96_1_0_0_1_n_n.contr.Idx) :
    (dot_S3200x256_S256x96_S3200x96_1_0_0_1_n_n.lhsIdx i q 0).val = (i 0).val := by
  unfold DotDims.lhsIdx
  rw [dif_neg (show ¬(0 : Fin S3200x256.rank) ∈ dot_S3200x256_S256x96_S3200x96_1_0_0_1_n_n.lhsBatch by decide), dif_pos (show (0 : Fin S3200x256.rank) ∈ dot_S3200x256_S256x96_S3200x96_1_0_0_1_n_n.lhsNonContracting by decide)]
  rfl
theorem lhs_dot_1 (i : S3200x96.Idx) (q : dot_S3200x256_S256x96_S3200x96_1_0_0_1_n_n.contr.Idx) :
    (dot_S3200x256_S256x96_S3200x96_1_0_0_1_n_n.lhsIdx i q 1).val = (q ⟨0, by decide⟩).val :=
  dot_S3200x256_S256x96_S3200x96_1_0_0_1_n_n.lhsIdx_val_of_single rfl i q
theorem rhs_dot_0 (i : S3200x96.Idx) (q : dot_S3200x256_S256x96_S3200x96_1_0_0_1_n_n.contr.Idx) :
    (dot_S3200x256_S256x96_S3200x96_1_0_0_1_n_n.rhsIdx i q 0).val = (q ⟨0, by decide⟩).val :=
  dot_S3200x256_S256x96_S3200x96_1_0_0_1_n_n.rhsIdx_val_of_single rfl i q
theorem rhs_dot_1 (i : S3200x96.Idx) (q : dot_S3200x256_S256x96_S3200x96_1_0_0_1_n_n.contr.Idx) :
    (dot_S3200x256_S256x96_S3200x96_1_0_0_1_n_n.rhsIdx i q 1).val = (i 1).val := by
  unfold DotDims.rhsIdx
  rw [dif_neg (show ¬(1 : Fin S256x96.rank) ∈ dot_S3200x256_S256x96_S3200x96_1_0_0_1_n_n.rhsBatch by decide), dif_pos (show (1 : Fin S256x96.rank) ∈ dot_S3200x256_S256x96_S3200x96_1_0_0_1_n_n.rhsNonContracting by decide)]
  rfl

/-- Entry (p, q) of the block product into the zero accumulator: row p of the left block against column q of the right. -/
theorem mm_at {φ₁ φ₂ : FTy} (L : FVec Ideal S3200x256 φ₁) (R : FVec Ideal S256x96 φ₂) (p : Fin 3200) (q : Fin 96) :
    matmul (F := Ideal) dot_S3200x256_S256x96_S3200x96_1_0_0_1_n_n none L R (constant S3200x96 .f32 0x00000000#32) (ix2 p q)
      = ∑ k : Fin 256, L (ix2 p k) * R (ix2 k q) := by
  simp only [matmul]
  rw [Ideal.matmul_constant_zero_apply, ← Equiv.sum_comp (ValueIdx.contrEquiv1 dot_S3200x256_S256x96_S3200x96_1_0_0_1_n_n 256 rfl rfl).symm]
  refine Finset.sum_congr rfl fun k _ => ?_
  have hk := ValueIdx.contrEquiv1_symm_val dot_S3200x256_S256x96_S3200x96_1_0_0_1_n_n 256 rfl rfl k
  have el : dot_S3200x256_S256x96_S3200x96_1_0_0_1_n_n.lhsIdx (ix2 p q) ((ValueIdx.contrEquiv1 dot_S3200x256_S256x96_S3200x96_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S3200x256_S256x96_S3200x96_1_0_0_1_n_n.rhsIdx (ix2 p q) ((ValueIdx.contrEquiv1 dot_S3200x256_S256x96_S3200x96_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-! ## The pre-activations and the stored value -/

/-- The block's concatenation [left rows | right rows | attribute rows]. -/
def catBlk (x0 x1 : Vec Ideal S3200x96 .f32) (x2 : Vec Ideal S3200x64 .f32) : FVec Ideal S3200x256 .f32 :=
  concatenate S3200x256 1 [⟨S3200x96, x0⟩, ⟨S3200x96, x1⟩, ⟨S3200x64, x2⟩] concatenates_S3200x96_S3200x96_S3200x64_S3200x256_d1

/-- One pre-activation as the body computes it: the narrowed concatenation times the narrowed weight, plus the bias
    laid along every row. -/
def preBlk (x0 x1 : Vec Ideal S3200x96 .f32) (x2 : Vec Ideal S3200x64 .f32) (W : Vec Ideal S256x96 .f32)
    (b : Vec Ideal S96 .f32) : FVec Ideal S3200x96 .f32 :=
  addf (matmul dot_S3200x256_S256x96_S3200x96_1_0_0_1_n_n none
      (truncf .bf16 (concatenate S3200x256 1 [⟨S3200x96, shapeCast S3200x96 x0 shapeCasts_S3200x96_S3200x96⟩,
        ⟨S3200x96, shapeCast S3200x96 x1 shapeCasts_S3200x96_S3200x96⟩, ⟨S3200x64, x2⟩]
        concatenates_S3200x96_S3200x96_S3200x64_S3200x256_d1) bitsLt_bf16_f32)
      (truncf .bf16 W bitsLt_bf16_f32) (constant S3200x96 .f32 0x00000000#32))
    (broadcastTo S3200x96 (shapeCast S1x96 b shapeCasts_S96_S1x96) broadcasts_S1x96_S3200x96)

theorem preBlk_at (x0 x1 : Vec Ideal S3200x96 .f32) (x2 : Vec Ideal S3200x64 .f32) (W : Vec Ideal S256x96 .f32)
    (b : Vec Ideal S96 .f32) (p : Fin 3200) (q : Fin 96) :
    preBlk x0 x1 x2 W b (ix2 p q) = Cert.Gated.preAct (catBlk x0 x1 x2) W b p q := by
  unfold preBlk Cert.Gated.preAct catBlk
  rw [shapeCast_self, shapeCast_self]
  show FloatOps.addf (matmul _ none _ _ _ (ix2 p q)) (broadcastTo S3200x96 _ _ (ix2 p q)) = _
  rw [mm_at, broadcastTo_1b_ab_apply, shapeCast_a_1a_apply]
  rfl

/-- The stored value is the gate of one pre-activation times the kernel's softplus of the other. -/
theorem pay_eq (x0 x1 : Vec Ideal S3200x96 .f32) (x2 : Vec Ideal S3200x64 .f32) (x3 x5 : Vec Ideal S256x96 .f32)
    (x4 x6 : Vec Ideal S96 .f32) (i : S3200x96.Idx) :
    k0_pay1 (F := Ideal) x0 x1 x2 x3 x5 x4 x6 i
      = FloatOps.mulf (FloatOps.logistic (preBlk x0 x1 x2 x3 x4 i))
          (Scalar.select (FloatOps.cmpf .one (FloatOps.subf (preBlk x0 x1 x2 x5 x6 i) Cert.Gated.zeroF) (FloatOps.subf (preBlk x0 x1 x2 x5 x6 i) Cert.Gated.zeroF))
            (FloatOps.addf (preBlk x0 x1 x2 x5 x6 i) Cert.Gated.zeroF)
            (FloatOps.addf (FloatOps.maximumf (preBlk x0 x1 x2 x5 x6 i) Cert.Gated.zeroF)
              (FloatOps.log1p (FloatOps.exp (FloatOps.subf Cert.Gated.zeroF (FloatOps.absf (FloatOps.subf (preBlk x0 x1 x2 x5 x6 i) Cert.Gated.zeroF))))))) := rfl

/-- The stored value at (p, q) is the gated message of row p of the concatenated block. -/
theorem pay_at (x0 x1 : Vec Ideal S3200x96 .f32) (x2 : Vec Ideal S3200x64 .f32) (x3 x5 : Vec Ideal S256x96 .f32)
    (x4 x6 : Vec Ideal S96 .f32) (p : Fin 3200) (q : Fin 96) :
    k0_pay1 (F := Ideal) x0 x1 x2 x3 x5 x4 x6 (ix2 p q) = Cert.Gated.gated (catBlk x0 x1 x2) x3 x4 x5 x6 p q := by
  rw [pay_eq, Cert.Gated.logistic_eq_gate, Cert.Gated.kernel_softplus_eq, preBlk_at, preBlk_at]
  rfl

end Cert.KernelPay

end
-- ==== Proof.LibConcat3.lean ====
/-
  Three matrices joined side by side, read at an index.

  General: for any row count n and any column counts a, b, c. The concatenation along the column axis of an [n, a], an
  [n, b] and an [n, c] matrix is an [n, a + b + c] matrix whose entry (r, k) is the first matrix's entry (r, k) while
  k < a, the second's entry (r, k - a) while a ≤ k < a + b, and the third's entry (r, k - a - b) from there on. In
  particular row r of the concatenation depends only on row r of each piece, so cutting the three pieces into the same
  blocks of rows and joining the blocks gives the matching block of rows of the joined matrix (`concat3_rows`).
-/
import Idealize.ShloMosaic.Lib.Pipeline.Value
import Idealize.ShloMosaic.Lib.ValueIdx

namespace Cert.Lib.Concat3

open Idealize.ShloMosaic Idealize.ShloMosaic.ValueIdx

variable {α : Type}

/-- THE JOINED MATRIX AT (r, k): the piece whose span of columns holds k, at row r and the column counted from the
    piece's own first column. -/
theorem concat3_cols_apply {n a b c w : Nat} (hw : a + b + c = w)
    (x : (⟨2, ![n, a]⟩ : Shape).Idx → α) (y : (⟨2, ![n, b]⟩ : Shape).Idx → α) (z : (⟨2, ![n, c]⟩ : Shape).Idx → α)
    (h : Shape.Concatenates [(⟨2, ![n, a]⟩ : Shape), ⟨2, ![n, b]⟩, ⟨2, ![n, c]⟩] ⟨2, ![n, w]⟩ 1) (r : Fin n) (k : Fin w) :
    concatenate ⟨2, ![n, w]⟩ 1 [⟨⟨2, ![n, a]⟩, x⟩, ⟨⟨2, ![n, b]⟩, y⟩, ⟨⟨2, ![n, c]⟩, z⟩] h (ix2 r k)
      = if h1 : k.val < a then x (ix2 r ⟨k.val, h1⟩)
        else if h2 : k.val < a + b then y (ix2 r ⟨k.val - a, by omega⟩)
        else z (ix2 r ⟨k.val - (a + b), by have := k.isLt; omega⟩) := by
  by_cases h1 : k.val < a
  · rw [dif_pos h1]
    refine concatenate_apply_piece (t := ⟨2, ![n, w]⟩) (1 : Fin 2) [⟨⟨2, ![n, a]⟩, x⟩, ⟨⟨2, ![n, b]⟩, y⟩, ⟨⟨2, ![n, c]⟩, z⟩] h (ix2 r k) 0 (by show 0 < 3; omega) ⟨2, ![n, a]⟩ x rfl rfl 0 rfl
      (ix2 r ⟨k.val, h1⟩) (fun d hd => ?_) (by show 0 + k.val = k.val; omega)
    match d with
    | ⟨0, _⟩ => rfl
    | ⟨1, _⟩ => exact absurd rfl hd
  · rw [dif_neg h1]
    by_cases h2 : k.val < a + b
    · rw [dif_pos h2]
      refine concatenate_apply_piece (t := ⟨2, ![n, w]⟩) (1 : Fin 2) [⟨⟨2, ![n, a]⟩, x⟩, ⟨⟨2, ![n, b]⟩, y⟩, ⟨⟨2, ![n, c]⟩, z⟩] h (ix2 r k) 1 (by show 1 < 3; omega) ⟨2, ![n, b]⟩ y rfl rfl a (by simp)
        (ix2 r ⟨k.val - a, by omega⟩) (fun d hd => ?_) (by show a + (k.val - a) = k.val; omega)
      match d with
      | ⟨0, _⟩ => rfl
      | ⟨1, _⟩ => exact absurd rfl hd
    · rw [dif_neg h2]
      refine concatenate_apply_piece (t := ⟨2, ![n, w]⟩) (1 : Fin 2) [⟨⟨2, ![n, a]⟩, x⟩, ⟨⟨2, ![n, b]⟩, y⟩, ⟨⟨2, ![n, c]⟩, z⟩] h (ix2 r k) 2 (by show 2 < 3; omega) ⟨2, ![n, c]⟩ z rfl rfl (a + b) (by simp)
        (ix2 r ⟨k.val - (a + b), by have := k.isLt; omega⟩) (fun d hd => ?_)
        (by show a + b + (k.val - (a + b)) = k.val; omega)
      match d with
      | ⟨0, _⟩ => rfl
      | ⟨1, _⟩ => exact absurd rfl hd

/-- ROWS OF THE JOINED MATRIX FROM ROWS OF THE PIECES. If row p of three smaller pieces is row r of three larger ones,
    entry by entry, then row p of the smaller pieces' concatenation is row r of the larger pieces' concatenation. -/
theorem concat3_rows {n n' a b c w : Nat} (hw : a + b + c = w)
    (x : (⟨2, ![n, a]⟩ : Shape).Idx → α) (y : (⟨2, ![n, b]⟩ : Shape).Idx → α) (z : (⟨2, ![n, c]⟩ : Shape).Idx → α)
    (x' : (⟨2, ![n', a]⟩ : Shape).Idx → α) (y' : (⟨2, ![n', b]⟩ : Shape).Idx → α) (z' : (⟨2, ![n', c]⟩ : Shape).Idx → α)
    (h : Shape.Concatenates [(⟨2, ![n, a]⟩ : Shape), ⟨2, ![n, b]⟩, ⟨2, ![n, c]⟩] ⟨2, ![n, w]⟩ 1)
    (h' : Shape.Concatenates [(⟨2, ![n', a]⟩ : Shape), ⟨2, ![n', b]⟩, ⟨2, ![n', c]⟩] ⟨2, ![n', w]⟩ 1)
    (p : Fin n) (r : Fin n') (hx : ∀ j : Fin a, x (ix2 p j) = x' (ix2 r j)) (hy : ∀ j : Fin b, y (ix2 p j) = y' (ix2 r j))
    (hz : ∀ j : Fin c, z (ix2 p j) = z' (ix2 r j)) (k : Fin w) :
    concatenate ⟨2, ![n, w]⟩ 1 [⟨⟨2, ![n, a]⟩, x⟩, ⟨⟨2, ![n, b]⟩, y⟩, ⟨⟨2, ![n, c]⟩, z⟩] h (ix2 p k)
      = concatenate ⟨2, ![n', w]⟩ 1 [⟨⟨2, ![n', a]⟩, x'⟩, ⟨⟨2, ![n', b]⟩, y'⟩, ⟨⟨2, ![n', c]⟩, z'⟩] h' (ix2 r k) := by
  rw [concat3_cols_apply hw x y z h p k, concat3_cols_apply hw x' y' z' h' r k]
  split_ifs
  · exact hx _
  · exact hy _
  · exact hz _

end Cert.Lib.Concat3
-- ==== Proof.KernelBlocks.lean ====
/-
  From the kernel's blocks to its whole output array.

  Grid point t handles edges 3200 t … 3200 t + 3199: its three edge windows are those rows of the gathered source rows,
  the gathered destination rows and the edge attributes, its weight and bias windows are the whole arrays, and its
  output window is those rows of the output. A row of the concatenated block is the same row of the concatenation of
  the three whole arrays, so what point t writes back is the gated message of edges 3200 t + p, for p < 3200; the 250
  blocks tile the 800000 rows, so the output array ends holding the gated message of every edge.
-/
import proofs.«407372_j32066225832046_1_alg».proof.Proof.Gen.KernelIdeal.Frame
import proofs.«407372_j32066225832046_1_alg».proof.Proof.KernelPay
import proofs.«407372_j32066225832046_1_alg».proof.Proof.LibConcat3
import Idealize.ShloMosaic.Lib.Pipeline.Value

set_option maxRecDepth 16384

noncomputable section

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The arrays the region's windows read, as the region finds them, at their literal types. -/
abbrev srcRows (c : Dev nD) : FVec Ideal S800000x96 .f32 := V m c (Pipeline.arrRef spec0 0)
abbrev dstRows (c : Dev nD) : FVec Ideal S800000x96 .f32 := V m c (Pipeline.arrRef spec0 1)
abbrev attr (c : Dev nD) : FVec Ideal S800000x64 .f32 := V m c (Pipeline.arrRef spec0 2)
abbrev wE (c : Dev nD) : FVec Ideal S256x96 .f32 := V m c (Pipeline.arrRef spec0 3)
abbrev bE (c : Dev nD) : FVec Ideal S96 .f32 := V m c (Pipeline.arrRef spec0 4)
abbrev wN (c : Dev nD) : FVec Ideal S256x96 .f32 := V m c (Pipeline.arrRef spec0 5)
abbrev bN (c : Dev nD) : FVec Ideal S96 .f32 := V m c (Pipeline.arrRef spec0 6)

theorem cat_ok : Shape.Concatenates [S800000x96, S800000x96, S800000x64] ⟨2, ![800000, 256]⟩ 1 := by decide

/-- The concatenation [source rows | destination rows | attributes] of the whole arrays. -/
def catArr (c : Dev nD) : (⟨2, ![800000, 256]⟩ : Shape).Idx → EReal :=
  concatenate ⟨2, ![800000, 256]⟩ 1 [⟨S800000x96, srcRows m c⟩, ⟨S800000x96, dstRows m c⟩, ⟨S800000x64, attr m c⟩] cat_ok

/-- The gated message of every edge, from the arrays as the region finds them. -/
def G (c : Dev nD) : S800000x96.Idx → EReal := fun i =>
  Cert.Gated.gated (catArr m c) (wE m c) (bE m c) (wN m c) (bN m c) ⟨(i 0).val, (i 0).isLt⟩ ⟨(i 1).val, (i 1).isLt⟩

/-- The printed index maps over the grid: the edge windows and the output move one block of rows per point, the weight
    and bias windows stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row p of an edge window's block at point t is row 3200 t + p of the window's array, whatever the array holds. -/
theorem read0 (c : Dev nD) (X : Buf (Elt Ideal) ((c : Thread nD τ).loc (Pipeline.arrRef spec0 0))) (t : Fin cfg0.N) (p : Fin 3200)
    (j : Fin 96) (r : Fin 800000) (hr : r.val = 3200 * t.val + p.val) :
    ((cfg0.win 0).blk t).view.read (Elt Ideal) X (ix2 p j) = (X : S800000x96.Idx → EReal) (ix2 r j) := by
  obtain ⟨e00, e01, e10, e11, e20, e21, -⟩ := idx_facts t
  show (X : S800000x96.Idx → EReal) (((cfg0.win 0).blk t).view.emb (ix2 p j)) = (X : S800000x96.Idx → EReal) (ix2 r j)
  refine congrArg (X : S800000x96.Idx → EReal) ?_
  funext a; apply Fin.ext
  match a with
  | ⟨0, _⟩ => show win0_0.index t (0 : Fin 2) * 3200 + 1 * p.val = r.val; omega
  | ⟨1, _⟩ => show win0_0.index t (1 : Fin 2) * 96 + 1 * j.val = j.val; omega

theorem blk0_at (c : Dev nD) (t : Fin cfg0.N) (p : Fin 3200) (j : Fin 96) (r : Fin 800000) (hr : r.val = 3200 * t.val + p.val) :
    (iblk m c 0 t : Vec Ideal S3200x96 .f32) (ix2 p j) = (V m c (Pipeline.arrRef spec0 0) : S800000x96.Idx → EReal) (ix2 r j) := by
  unfold iblk
  exact read0 c (V m c (Pipeline.arrRef spec0 0)) t p j r hr

theorem read1 (c : Dev nD) (X : Buf (Elt Ideal) ((c : Thread nD τ).loc (Pipeline.arrRef spec0 1))) (t : Fin cfg0.N) (p : Fin 3200)
    (j : Fin 96) (r : Fin 800000) (hr : r.val = 3200 * t.val + p.val) :
    ((cfg0.win 1).blk t).view.read (Elt Ideal) X (ix2 p j) = (X : S800000x96.Idx → EReal) (ix2 r j) := by
  obtain ⟨e00, e01, e10, e11, e20, e21, -⟩ := idx_facts t
  show (X : S800000x96.Idx → EReal) (((cfg0.win 1).blk t).view.emb (ix2 p j)) = (X : S800000x96.Idx → EReal) (ix2 r j)
  refine congrArg (X : S800000x96.Idx → EReal) ?_
  funext a; apply Fin.ext
  match a with
  | ⟨0, _⟩ => show win0_1.index t (0 : Fin 2) * 3200 + 1 * p.val = r.val; omega
  | ⟨1, _⟩ => show win0_1.index t (1 : Fin 2) * 96 + 1 * j.val = j.val; omega

theorem blk1_at (c : Dev nD) (t : Fin cfg0.N) (p : Fin 3200) (j : Fin 96) (r : Fin 800000) (hr : r.val = 3200 * t.val + p.val) :
    (iblk m c 1 t : Vec Ideal S3200x96 .f32) (ix2 p j) = (V m c (Pipeline.arrRef spec0 1) : S800000x96.Idx → EReal) (ix2 r j) := by
  unfold iblk
  exact read1 c (V m c (Pipeline.arrRef spec0 1)) t p j r hr

theorem read2 (c : Dev nD) (X : Buf (Elt Ideal) ((c : Thread nD τ).loc (Pipeline.arrRef spec0 2))) (t : Fin cfg0.N) (p : Fin 3200)
    (j : Fin 64) (r : Fin 800000) (hr : r.val = 3200 * t.val + p.val) :
    ((cfg0.win 2).blk t).view.read (Elt Ideal) X (ix2 p j) = (X : S800000x64.Idx → EReal) (ix2 r j) := by
  obtain ⟨e00, e01, e10, e11, e20, e21, -⟩ := idx_facts t
  show (X : S800000x64.Idx → EReal) (((cfg0.win 2).blk t).view.emb (ix2 p j)) = (X : S800000x64.Idx → EReal) (ix2 r j)
  refine congrArg (X : S800000x64.Idx → EReal) ?_
  funext a; apply Fin.ext
  match a with
  | ⟨0, _⟩ => show win0_2.index t (0 : Fin 2) * 3200 + 1 * p.val = r.val; omega
  | ⟨1, _⟩ => show win0_2.index t (1 : Fin 2) * 64 + 1 * j.val = j.val; omega

theorem blk2_at (c : Dev nD) (t : Fin cfg0.N) (p : Fin 3200) (j : Fin 64) (r : Fin 800000) (hr : r.val = 3200 * t.val + p.val) :
    (iblk m c 2 t : Vec Ideal S3200x64 .f32) (ix2 p j) = (V m c (Pipeline.arrRef spec0 2) : S800000x64.Idx → EReal) (ix2 r j) := by
  unfold iblk
  exact read2 c (V m c (Pipeline.arrRef spec0 2)) t p j r hr

/-- A weight or bias window's block is the window's whole array at every point. -/
theorem read3 (c : Dev nD) (X : Buf (Elt Ideal) ((c : Thread nD τ).loc (Pipeline.arrRef spec0 3))) (t : Fin cfg0.N) :
    ((cfg0.win 3).blk t).view.read (Elt Ideal) X = (X : S256x96.Idx → EReal) := by
  obtain ⟨-, -, -, -, -, -, e30, e31, e40, e50, e51, e60, -⟩ := idx_facts t
  funext y
  show (X : S256x96.Idx → EReal) (((cfg0.win 3).blk t).view.emb y) = (X : S256x96.Idx → EReal) y
  refine congrArg (X : S256x96.Idx → EReal) ?_
  funext a; apply Fin.ext
  match a with
  | ⟨0, _⟩ => show win0_3.index t (0 : Fin 2) * 256 + 1 * (y 0).val = (y 0).val; omega
  | ⟨1, _⟩ => show win0_3.index t (1 : Fin 2) * 96 + 1 * (y 1).val = (y 1).val; omega

theorem blk3_eq (c : Dev nD) (t : Fin cfg0.N) : (iblk m c 3 t : Vec Ideal S256x96 .f32) = (V m c (Pipeline.arrRef spec0 3) : S256x96.Idx → EReal) := by
  unfold iblk
  exact read3 c (V m c (Pipeline.arrRef spec0 3)) t

theorem read4 (c : Dev nD) (X : Buf (Elt Ideal) ((c : Thread nD τ).loc (Pipeline.arrRef spec0 4))) (t : Fin cfg0.N) :
    ((cfg0.win 4).blk t).view.read (Elt Ideal) X = (X : S96.Idx → EReal) := by
  obtain ⟨-, -, -, -, -, -, e30, e31, e40, e50, e51, e60, -⟩ := idx_facts t
  funext y
  show (X : S96.Idx → EReal) (((cfg0.win 4).blk t).view.emb y) = (X : S96.Idx → EReal) y
  refine congrArg (X : S96.Idx → EReal) ?_
  funext a; apply Fin.ext
  match a with
  | ⟨0, _⟩ => show win0_4.index t (0 : Fin 1) * 96 + 1 * (y 0).val = (y 0).val; omega

theorem blk4_eq (c : Dev nD) (t : Fin cfg0.N) : (iblk m c 4 t : Vec Ideal S96 .f32) = (V m c (Pipeline.arrRef spec0 4) : S96.Idx → EReal) := by
  unfold iblk
  exact read4 c (V m c (Pipeline.arrRef spec0 4)) t

theorem read5 (c : Dev nD) (X : Buf (Elt Ideal) ((c : Thread nD τ).loc (Pipeline.arrRef spec0 5))) (t : Fin cfg0.N) :
    ((cfg0.win 5).blk t).view.read (Elt Ideal) X = (X : S256x96.Idx → EReal) := by
  obtain ⟨-, -, -, -, -, -, e30, e31, e40, e50, e51, e60, -⟩ := idx_facts t
  funext y
  show (X : S256x96.Idx → EReal) (((cfg0.win 5).blk t).view.emb y) = (X : S256x96.Idx → EReal) y
  refine congrArg (X : S256x96.Idx → EReal) ?_
  funext a; apply Fin.ext
  match a with
  | ⟨0, _⟩ => show win0_5.index t (0 : Fin 2) * 256 + 1 * (y 0).val = (y 0).val; omega
  | ⟨1, _⟩ => show win0_5.index t (1 : Fin 2) * 96 + 1 * (y 1).val = (y 1).val; omega

theorem blk5_eq (c : Dev nD) (t : Fin cfg0.N) : (iblk m c 5 t : Vec Ideal S256x96 .f32) = (V m c (Pipeline.arrRef spec0 5) : S256x96.Idx → EReal) := by
  unfold iblk
  exact read5 c (V m c (Pipeline.arrRef spec0 5)) t

theorem read6 (c : Dev nD) (X : Buf (Elt Ideal) ((c : Thread nD τ).loc (Pipeline.arrRef spec0 6))) (t : Fin cfg0.N) :
    ((cfg0.win 6).blk t).view.read (Elt Ideal) X = (X : S96.Idx → EReal) := by
  obtain ⟨-, -, -, -, -, -, e30, e31, e40, e50, e51, e60, -⟩ := idx_facts t
  funext y
  show (X : S96.Idx → EReal) (((cfg0.win 6).blk t).view.emb y) = (X : S96.Idx → EReal) y
  refine congrArg (X : S96.Idx → EReal) ?_
  funext a; apply Fin.ext
  match a with
  | ⟨0, _⟩ => show win0_6.index t (0 : Fin 1) * 96 + 1 * (y 0).val = (y 0).val; omega

theorem blk6_eq (c : Dev nD) (t : Fin cfg0.N) : (iblk m c 6 t : Vec Ideal S96 .f32) = (V m c (Pipeline.arrRef spec0 6) : S96.Idx → EReal) := by
  unfold iblk
  exact read6 c (V m c (Pipeline.arrRef spec0 6)) t

/-- The gated message depends on the concatenation only through its row. -/
theorem gated_congr {n n' : Nat} (cat : (⟨2, ![n, 256]⟩ : Shape).Idx → EReal) (cat' : (⟨2, ![n', 256]⟩ : Shape).Idx → EReal)
    (We : (⟨2, ![256, 96]⟩ : Shape).Idx → EReal) (be : (⟨1, ![96]⟩ : Shape).Idx → EReal)
    (Wn : (⟨2, ![256, 96]⟩ : Shape).Idx → EReal) (bn : (⟨1, ![96]⟩ : Shape).Idx → EReal) (p : Fin n) (r : Fin n') (q : Fin 96)
    (h : ∀ k : Fin 256, cat (ix2 p k) = cat' (ix2 r k)) :
    Cert.Gated.gated cat We be Wn bn p q = Cert.Gated.gated cat' We be Wn bn r q := by
  unfold Cert.Gated.gated Cert.Gated.preAct
  simp only [h]

/-- The gated messages at edge r, feature q. -/
theorem G_at (c : Dev nD) (r : Fin 800000) (q : Fin 96) :
    G m c (ix2 r q) = Cert.Gated.gated (catArr m c) (wE m c) (bE m c) (wN m c) (bN m c) r q := rfl

/-- A block of the output window whose row p is row 3200 t + p of an array is point t's block of that array, whatever
    the block and the array hold. -/
theorem cut_read7 (c : Dev nD) (t : Fin cfg0.N) (P : Vec Ideal S3200x96 .f32)
    (Y : Buf (Elt Ideal) ((c : Thread nD τ).loc (Pipeline.arrRef spec0 7)))
    (h : ∀ (p : Fin 3200) (q : Fin 96) (r : Fin 800000), r.val = 3200 * t.val + p.val →
      P (ix2 p q) = (Y : S800000x96.Idx → EReal) (ix2 r q)) :
    (cfg0.win 7).cut (grid0.coords t) P = ((cfg0.win 7).blk t).view.read (Elt Ideal) Y := by
  obtain ⟨-, -, -, -, -, -, -, -, -, -, -, -, e0, e1⟩ := idx_facts t
  funext y
  obtain ⟨p, q, rfl⟩ : ∃ (p : Fin 3200) (q : Fin 96), y = ix2 p q := ⟨y 0, y 1, eq_ix2 y⟩
  have ht : t.val < 250 := by have h1 := t.isLt; have hN : cfg0.N = 250 := N_0; omega
  have hrlt : 3200 * t.val + p.val < 800000 := by have := p.isLt; omega
  show P (ix2 p q) = (Y : S800000x96.Idx → EReal) (((cfg0.win 7).blk t).view.emb (ix2 p q))
  rw [h p q ⟨3200 * t.val + p.val, hrlt⟩ rfl]
  refine congrArg (Y : S800000x96.Idx → EReal) ?_
  funext a; apply Fin.ext
  match a with
  | ⟨0, _⟩ => show 3200 * t.val + p.val = win0_7.index t (0 : Fin 2) * 3200 + 1 * p.val; omega
  | ⟨1, _⟩ => show q.val = win0_7.index t (1 : Fin 2) * 96 + 1 * q.val; omega

/-- WHAT POINT t WRITES BACK is block t of the gated messages. -/
theorem flushed7_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  unfold out0_7
  rw [View.canon_unit_zero hz2]
  simp only [View.ld_unit_zero (S := S3200x96) hz2, View.ld_unit_zero (S := S3200x64) hz2,
    View.ld_unit_zero (S := S256x96) hz2, View.ld_unit_zero (S := S96) hz1]
  rw [blk3_eq, blk4_eq, blk5_eq, blk6_eq]
  refine cut_read7 c t _ (G m c) fun p q r hr => ?_
  refine (Cert.KernelPay.pay_at (iblk m c 0 t) (iblk m c 1 t) (iblk m c 2 t) (wE m c) (wN m c) (bE m c) (bN m c) p q).trans ?_
  rw [G_at]
  refine gated_congr _ _ _ _ _ _ p r q fun k => ?_
  unfold Cert.KernelPay.catBlk catArr
  exact Cert.Lib.Concat3.concat3_rows (a := 96) (b := 96) (c := 64) (w := 256) rfl
    (iblk m c 0 t) (iblk m c 1 t) (iblk m c 2 t) (srcRows m c) (dstRows m c) (attr m c) _ _ p r
    (fun j => blk0_at m c t p j r hr) (fun j => blk1_at m c t p j r hr) (fun j => blk2_at m c t p j r hr) k

/-- An index of the output array is in point t's block iff its row is one of the point's 3200 rows. -/
theorem mem_blk7 (t : Fin cfg0.N) (i : S800000x96.Idx) :
    i ∈ ((cfg0.win 7).blk t).view.set ↔ ∀ a : Fin 2, win0_7.index t a * S3200x96.size a ≤ (i a).val ∧ (i a).val < win0_7.index t a * S3200x96.size a + S3200x96.size a := by
  show i ∈ ((View.whole main_v6).slice (win0_7.rect t)).set ↔ _
  rw [View.set_slice_whole, Rect.mem_set_unit]
  exact Iff.rfl

/-- The 250 blocks of 3200 rows tile the output array. -/
theorem cover7 (i : S800000x96.Idx) : ∃ t : Fin cfg0.N, (cfg0.win 7).flush t = true ∧ i ∈ ((cfg0.win 7).blk t).view.set := by
  have hi0 : (i 0).val < 800000 := (i 0).isLt
  have hi1 : (i 1).val < 96 := (i 1).isLt
  have hN : cfg0.N = 250 := N_0
  refine ⟨⟨(i 0).val / 3200, by rw [hN]; omega⟩, flush0_7 _, ?_⟩
  rw [mem_blk7]
  obtain ⟨-, -, -, -, -, -, -, -, -, -, -, -, e0, e1⟩ := idx_facts ⟨(i 0).val / 3200, by rw [hN]; omega⟩
  intro a
  match a with
  | ⟨0, _⟩ =>
    show win0_7.index _ (0 : Fin 2) * 3200 ≤ (i 0).val ∧ (i 0).val < win0_7.index _ (0 : Fin 2) * 3200 + 3200
    rw [e0]; show (i 0).val / 3200 * 3200 ≤ (i 0).val ∧ (i 0).val < (i 0).val / 3200 * 3200 + 3200; omega
  | ⟨1, _⟩ =>
    show win0_7.index _ (1 : Fin 2) * 96 ≤ (i 1).val ∧ (i 1).val < win0_7.index _ (1 : Fin 2) * 96 + 96
    rw [e1]; omega

/-- THE OUTPUT ARRAY after the region: the gated message of every edge. -/
theorem final7 (c : Dev nD) : (dats m 0 c).arrAt 7 cfg0.N = G m c :=
  (dats m 0 c).arrAt_eq_of_cover 7 (G m c) (fun t _ => flushed7_eq m c t) (cover7)

end Cert.KernelBlocks

end
-- ==== Proof.LibTakeFill.lean ====
/-
  A TAKE WITH OUT-OF-RANGE ENTRIES FILLED. `jnp.take(table, idx)` in its default mode first wraps a negative index the
  way NumPy does (`w = idx + N` where `idx < 0`, else `w = idx`, `N` the table's extent), then keeps the gathered entry
  where `0 ≤ w ≤ N - 1` and writes a fill value elsewhere. The in-range test is printed over the [n × 1] column of wrapped
  indices: the reduction by `and` along the second axis of `(col ≥ lo) & (col ≤ hi)`.

  * `wrap_in_range`: an index in `[-N, N)` wraps into `[0, N - 1]`;
  * `wrap_of_nonneg`: a non-negative index is left as it is;
  * `foldl_andi_of_all_one`: a left fold by `and` from 1 over `i1` words that are all 1 is 1;
  * `fill_mask_eq_one`: the printed in-range test is 1 at a row whose wrapped index lies between the bounds.

  Every statement holds at any number of rows `n` and any table extent below 2³⁰.
-/
import Idealize.ShloMosaic.Lib.ReduceAll
import Idealize.ShloMosaic.Lib.StableHlo.Predicate
import Idealize.ShloMosaic.Lib.ValueIdx

namespace Cert.Lib.TakeFill

open Idealize.ShloMosaic
open Idealize.ShloMosaic.StableHlo.Predicate (ixP)
open Idealize.ShloMosaic.ValueIdx (ix1)

/-- An integer in the signed 32-bit range is its own balanced remainder modulo 2³². -/
private theorem bmod_self {m : Int} (h₁ : -2 ^ 31 ≤ m) (h₂ : m < 2 ^ 31) : m.bmod (2 ^ 32) = m :=
  Int.bmod_eq_of_le (by omega) (by omega)

/-- The extent of a table below 2³⁰, as a 32-bit word, reads as itself. -/
private theorem toInt_extent (N : Nat) (hN : N < 2 ^ 31) : (BitVec.ofNat 32 N).toInt = (N : Int) := by
  rw [BitVec.toInt_ofNat']
  exact bmod_self (by omega) (by omega)

/-- THE WRAP LANDS IN RANGE. For a table of extent `N` (positive, below 2³⁰) an index `x` with `-N ≤ x < N`, wrapped
    the NumPy way (`x + N` where `x < 0`, else `x`), lies in `[0, N - 1]`: a negative `x` has `0 ≤ x + N ≤ N - 1` and the
    sum does not leave the word; a non-negative `x` is below `N` already. -/
theorem wrap_in_range (N : Nat) (hN : 0 < N) (hN' : N < 2 ^ 30) (x : BitVec 32) (hlo : -(N : Int) ≤ x.toInt)
    (hhi : x.toInt < (N : Int)) :
    0 ≤ (Scalar.select (IntOp.cmpi .slt x 0#32) (IntOp.addi x (BitVec.ofNat 32 N)) x).toInt ∧
      (Scalar.select (IntOp.cmpi .slt x 0#32) (IntOp.addi x (BitVec.ofNat 32 N)) x).toInt ≤ (N : Int) - 1 := by
  have h0 : (0#32).toInt = 0 := rfl
  by_cases h : x.toInt < 0
  · have hc : IntOp.cmpi .slt x 0#32 = (1 : BitVec 1) := IntOp.cmpi_slt.2 (by rw [h0]; exact h)
    have hn : (BitVec.ofNat 32 N).toInt = (N : Int) := toInt_extent N (by omega)
    have hs : (IntOp.addi x (BitVec.ofNat 32 N)).toInt = x.toInt + (N : Int) := by
      rw [IntOp.addi, BitVec.toInt_add, hn]
      exact bmod_self (by omega) (by omega)
    rw [Scalar.select, if_pos hc, hs]
    omega
  · have hc : ¬ IntOp.cmpi .slt x 0#32 = (1 : BitVec 1) := fun e => h (by have := IntOp.cmpi_slt.1 e; rwa [h0] at this)
    rw [Scalar.select, if_neg hc]
    omega

/-- A NON-NEGATIVE INDEX IS NOT WRAPPED: the comparison `x < 0` fails, so the selection keeps `x`. -/
theorem wrap_of_nonneg (N : Nat) (x : BitVec 32) (h : 0 ≤ x.toInt) :
    Scalar.select (IntOp.cmpi .slt x 0#32) (IntOp.addi x (BitVec.ofNat 32 N)) x = x := by
  have h0 : (0#32).toInt = 0 := rfl
  have hc : ¬ IntOp.cmpi .slt x 0#32 = (1 : BitVec 1) := fun e => by
    have := IntOp.cmpi_slt.1 e
    rw [h0] at this
    omega
  rw [Scalar.select, if_neg hc]

/-- A left fold by `and` from 1 over `i1` words that are all 1 is 1 (the converse of reading such a fold back). -/
theorem foldl_andi_of_all_one {ι : Type} (f : ι → BitVec 1) :
    ∀ l : List ι, (∀ i ∈ l, f i = 1#1) → l.foldl (fun r i => IntOp.andi r (f i)) 1#1 = 1#1
  | [], _ => rfl
  | a :: l, h => by
    have ha : IntOp.andi 1#1 (f a) = 1#1 := IntOp.andi_eq_one.2 ⟨rfl, h a List.mem_cons_self⟩
    rw [List.foldl_cons, ha]
    exact foldl_andi_of_all_one f l fun i hi => h i (List.mem_cons_of_mem _ hi)

/-- THE IN-RANGE TEST AT A ROW. The reduction by `and` along the second axis of `(col ≥ lo) & (col ≤ hi)` over an
    [n × 1] column, from an initial value whose element is 1, is 1 at row `p` as soon as the column's entry of that row
    lies between the two bounds' entries there: the only index of the column that reduces into row `p` is (`p`, 0), and
    both comparisons hold at it. -/
theorem fill_mask_eq_one {n : Nat} {u : Shape} (hred : (⟨2, ![n, 1]⟩ : Shape).ReducesTo [1] ⟨1, ![n]⟩)
    (hu : 0 < u.numel) (init : u.Idx → BitVec 1) (hinit : init (Shape.Idx.first hu) = 1#1)
    (col lo hi : IVec ⟨2, ![n, 1]⟩ 32) (p : Fin n)
    (hx : (lo (ixP p)).toInt ≤ (col (ixP p)).toInt ∧ (col (ixP p)).toInt ≤ (hi (ixP p)).toInt) :
    Host.reduce IntOp.andi (andi (cmpi .sge col lo) (cmpi .sle col hi)) init hred hu (ix1 p) = 1#1 := by
  rw [Host.reduce_eq_foldl, hinit]
  refine foldl_andi_of_all_one _ _ fun i hmem => ?_
  -- an index that reduces into row p is (p, 0)
  have hd : hred.drop i = ix1 p := of_decide_eq_true (List.mem_filter.1 hmem).2
  have hv : (hred.drop i 0 : Nat) = i 0 := Shape.ReducesTo.drop_apply_val hred i 0
  have hr : (i 0 : Nat) = p := by rw [← hv, hd]; rfl
  have hip : i = ixP p := by
    funext b
    match b with
    | ⟨0, _⟩ => exact Fin.ext hr
    | ⟨1, _⟩ => exact Subsingleton.elim (α := Fin 1) _ _
  subst hip
  exact IntOp.andi_eq_one.2 ⟨IntOp.cmpi_sge.2 hx.1, IntOp.cmpi_sle.2 hx.2⟩

end Cert.Lib.TakeFill
-- ==== Proof.KernelTake.lean ====
/-
  The node rows the kernel's program gathers before its region.

  The program takes rows of the node table h at the source and at the destination endpoints with jnp.take in its default
  mode: a negative endpoint e is first wrapped to e + 50000, the row at the wrapped endpoint is gathered, and where the
  wrapped endpoint is outside [0, 49999] the row is replaced by a fill constant. Under the precondition every endpoint
  lies in [-50000, 50000), so every wrapped endpoint lies in [0, 49999], the in-range test is 1 at every edge, and the
  take is the plain gather at the wrapped endpoints: the same gather the reference writes.
-/
import proofs.«407372_j32066225832046_1_alg».proof.Proof.Gen.KernelIdeal.Frame
import proofs.«407372_j32066225832046_1_alg».proof.Proof.LibTakeFill
import Idealize.ShloMosaic.Lib.StableHlo.Run
import Idealize.ShloMosaic.Lib.StableHlo.Predicate

noncomputable section

namespace Cert.KernelTake

open Cert.KernelIdeal Cert.KernelIdeal.Gen Idealize.ShloMosaic Idealize.ShloMosaic.TcCoe Idealize.SL.Sem
open Idealize.ShloMosaic.StableHlo
open Idealize.ShloMosaic.ValueIdx (ix1)
open Idealize.ShloMosaic.StableHlo.Predicate (ixP)

variable {F : FTy → Type} [FloatOps F]

/-- The source endpoints: row 0 of edge_index as a vector. -/
def srcOf (e : IVec S2x800000 32) : IVec S800000 32 :=
  shapeCast S800000 (extractStridedSlice S1x800000 ![0, 0] e slices_S2x800000_S1x800000_0_0) shapeCasts_S1x800000_S800000
/-- The destination endpoints: row 1 of edge_index as a vector. -/
def dstOf (e : IVec S2x800000 32) : IVec S800000 32 :=
  shapeCast S800000 (extractStridedSlice S1x800000 ![1, 0] e slices_S2x800000_S1x800000_1_0) shapeCasts_S1x800000_S800000

/-- NumPy's wrap of a negative index into a table of 50000 rows. -/
def wrapOf (v : IVec S800000 32) : IVec S800000 32 :=
  select (cmpi .slt v (broadcastInDim S800000 ![] bcast_S_S800000 (constantI S_ 32 0#32)))
    (addi v (broadcastInDim S800000 ![] bcast_S_S800000 (constantI S_ 32 50000#32))) v
/-- The wrapped endpoints as a column of start indices. -/
def colOf (v : IVec S800000 32) : IVec S800000x1 32 :=
  broadcastInDim S800000x1 ![0] bcast_S800000_S800000x1_0 (wrapOf v)
/-- The rows of h at the wrapped endpoints. -/
def rowsOf (h : FVec F S50000x96 .f32) (v : IVec S800000 32) : FVec F S800000x96 .f32 :=
  Host.gather gather_S50000x96_S800000x1_S800000x96_1_0_n_n_0_1_196 h (colOf v)
/-- The in-range test of the wrapped endpoints. -/
def maskOf (v : IVec S800000 32) : IVec S800000 1 :=
  Host.reduce IntOp.andi
    (andi (cmpi .sge (colOf v) (broadcastInDim S800000x1 ![] bcast_S_S800000x1 (constantI S_ 32 0#32)))
      (cmpi .sle (colOf v) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_
/-- jnp.take in its default mode: the gathered row where the wrapped endpoint is in range, the fill constant elsewhere. -/
def takeOf (h : FVec F S50000x96 .f32) (v : IVec S800000 32) : FVec F S800000x96 .f32 :=
  select (broadcastInDim S800000x96 ![0] bcast_S800000_S800000x96_0 (maskOf v)) (rowsOf h v)
    (broadcastInDim S800000x96 ![] bcast_S_S800000x96 (constant S_ .f32 0x7FC00000#32))

/-- A value moved to a typed reference's buffer type and back is the value. -/
theorem ofBuf_toBuf {sig : RefSig} {Val : EltTy → Type} {T : BufTy} (x : StableHlo.TRef sig T) (v : T.Contents Val) :
    x.ofBuf (x.toBuf v) = v := by
  obtain ⟨r, h, hd, hu⟩ := x
  cases h
  rfl

/-- At the literal references the take chain starts from and ends at, whose buffer types are the values' types, the moves are the identity. -/
theorem leaf_v1 {Val : EltTy → Type} (p hd hu) (v : (⟨S800000, .i32⟩ : BufTy).Contents Val) :
    (StableHlo.TRef.of (T := ⟨S800000, .i32⟩) main_v1 p hd hu).ofBuf v = v := rfl
theorem leaf_v3 {Val : EltTy → Type} (p hd hu) (v : (⟨S800000, .i32⟩ : BufTy).Contents Val) :
    (StableHlo.TRef.of (T := ⟨S800000, .i32⟩) main_v3 p hd hu).ofBuf v = v := rfl
theorem leaf_arg0 {Val : EltTy → Type} (p hd hu) (v : (⟨S50000x96, .f32⟩ : BufTy).Contents Val) :
    (StableHlo.TRef.of (T := ⟨S50000x96, .f32⟩) main_arg0 p hd hu).ofBuf v = v := rfl
theorem top_v4 {Val : EltTy → Type} (p hd hu) (v : (⟨S800000x96, .f32⟩ : BufTy).Contents Val) :
    (StableHlo.TRef.of (T := ⟨S800000x96, .f32⟩) main_v4 p hd hu).toBuf v = v := rfl
theorem top_v5 {Val : EltTy → Type} (p hd hu) (v : (⟨S800000x96, .f32⟩ : BufTy).Contents Val) :
    (StableHlo.TRef.of (T := ⟨S800000x96, .f32⟩) main_v5 p hd hu).toBuf v = v := rfl

/-! ## What the region finds -/

variable (m : (ℓ : Loc nD τ sig) → Buf (Elt F) ℓ)

set_option maxRecDepth 100000 in
set_option maxHeartbeats 4000000 in
/-- The first edge window's array: the take of h at the source endpoints. -/
theorem V_v4 (c : Dev nD) : (V m c main_v4 : FVec F S800000x96 .f32)
    = takeOf (m ((c : Thread nD τ).loc main_arg0)) (srcOf (m ((c : Thread nD τ).loc main_arg1))) := by
  dsimp only [V, V0]
  simp only [hostOps0, hostOps0_1, hostOps0_2, List.flatten_cons, List.flatten_nil, List.append_nil, List.cons_append, List.nil_append]
  after_results_simp
  simp only [ofBuf_toBuf, leaf_v1, leaf_arg0, top_v4]
  rfl

set_option maxRecDepth 100000 in
set_option maxHeartbeats 4000000 in
/-- The second edge window's array: the take of h at the destination endpoints. -/
theorem V_v5 (c : Dev nD) : (V m c main_v5 : FVec F S800000x96 .f32)
    = takeOf (m ((c : Thread nD τ).loc main_arg0)) (dstOf (m ((c : Thread nD τ).loc main_arg1))) := by
  dsimp only [V, V0]
  simp only [hostOps0, hostOps0_1, hostOps0_2, List.flatten_cons, List.flatten_nil, List.append_nil, List.cons_append, List.nil_append]
  after_results_simp
  simp only [ofBuf_toBuf, leaf_v3, leaf_arg0, top_v5]
  rfl

set_option maxHeartbeats 4000000 in
/-- The destination endpoints as the lines after the region read them. -/
theorem V_v3 (c : Dev nD) : (V m c main_v3 : S800000.Idx → BitVec 32) = dstOf (m ((c : Thread nD τ).loc main_arg1)) := by
  dsimp only [V, V0]
  simp only [hostOps0, hostOps0_1, hostOps0_2, List.flatten_cons, List.flatten_nil, List.append_nil, List.cons_append, List.nil_append]
  after_results_simp
  rfl

/-! ## Under the precondition the take is the gather -/

/-- An entry of either row of edge_index is an entry of edge_index. -/
theorem srcOf_range (e : IVec S2x800000 32) (he : ∀ j, -50000 ≤ (e j).toInt ∧ (e j).toInt < 50000) (i : S800000.Idx) :
    -50000 ≤ (srcOf e i).toInt ∧ (srcOf e i).toInt < 50000 := by
  unfold srcOf shapeCast extractStridedSlice
  exact he _
theorem dstOf_range (e : IVec S2x800000 32) (he : ∀ j, -50000 ≤ (e j).toInt ∧ (e j).toInt < 50000) (i : S800000.Idx) :
    -50000 ≤ (dstOf e i).toInt ∧ (dstOf e i).toInt < 50000 := by
  unfold dstOf shapeCast extractStridedSlice
  exact he _

/-- With every endpoint in [-50000, 50000) the in-range test is 1 at every edge. -/
theorem maskOf_one (v : IVec S800000 32) (hv : ∀ i, -50000 ≤ (v i).toInt ∧ (v i).toInt < 50000) (k : Fin 800000) :
    maskOf v (ix1 k) = 1#1 := by
  unfold maskOf
  refine Cert.Lib.TakeFill.fill_mask_eq_one reducesTo_S800000x1_S800000_d1 h_S_ (constantI S_ 1 1#1) rfl (colOf v) _ _ k ?_
  have hcol : colOf v (ixP k) = Scalar.select (IntOp.cmpi .slt (v (Shape.Idx.ofFin k)) 0#32)
      (IntOp.addi (v (Shape.Idx.ofFin k)) (BitVec.ofNat 32 50000)) (v (Shape.Idx.ofFin k)) := by
    unfold colOf
    rw [Predicate.bcast_col1]
    rfl
  have h := Cert.Lib.TakeFill.wrap_in_range 50000 (by decide) (by decide) (v (Shape.Idx.ofFin k)) (hv _).1 (hv _).2
  rw [hcol]
  exact ⟨h.1, h.2⟩

/-- With every endpoint in [-50000, 50000) the take is the gather at the wrapped endpoints. -/
theorem takeOf_eq (h : FVec F S50000x96 .f32) (v : IVec S800000 32)
    (hv : ∀ i, -50000 ≤ (v i).toInt ∧ (v i).toInt < 50000) : takeOf h v = rowsOf h v := by
  funext i
  have hm : broadcastInDim S800000x96 ![0] bcast_S800000_S800000x96_0 (maskOf v) i = 1#1 := by
    show maskOf v _ = 1#1
    have e : ∀ j : S800000.Idx, maskOf v j = 1#1 := fun j => by
      obtain ⟨k, rfl⟩ : ∃ k : Fin 800000, j = ix1 k := ⟨j 0, ValueIdx.eq_ix1 j⟩
      exact maskOf_one v hv k
    exact e _
  unfold takeOf
  simp only [select]
  rw [hm]
  rfl

end Cert.KernelTake

end
-- ==== Proof.KernelTail.lean ====
/-
  The lines after the kernel's region, and the kernel program's whole run.

  After the region the program sums the gated messages into their destination nodes (a scatter-add into zeros by the
  destination endpoints), counts the edges of each destination the same way, clips the counts from below at one, divides
  and adds the node table h. Read off the frame run: the region's output array is the gated message of every edge, the
  destination endpoints are row 1 of edge_index, and h is as launched.
-/
import proofs.«407372_j32066225832046_1_alg».proof.Proof.KernelBlocks
import proofs.«407372_j32066225832046_1_alg».proof.Proof.KernelTake

noncomputable section

namespace Cert.KernelTail

open Cert.KernelIdeal Cert.KernelIdeal.Gen Idealize.ShloMosaic Idealize.ShloMosaic.TcCoe Idealize.SL.Sem
open Idealize.ShloMosaic.StableHlo
open Idealize.ShloMosaic.Pipeline (Dat)

section AnyFloats

variable {F : FTy → Type} [FloatOps F]

/-- The update of the node table from the gated messages g: h + (sum of g over each node's incoming edges) / max(1, number of those edges). -/
def tailOf (h : FVec F S50000x96 .f32) (dst : IVec S800000 32) (g : FVec F S800000x96 .f32) : FVec F S50000x96 .f32 :=
  addf h (Host.divf
    (Host.scatterAdd scatter_S50000x96_S800000x1_S800000x96_1_0_0_1
      (broadcastInDim S50000x96 ![] bcast_S_S50000x96 (constant S_ .f32 0x00000000#32))
      (broadcastInDim S800000x1 ![0] bcast_S800000_S800000x1_0 dst) g)
    (broadcastInDim S50000x96 ![0, 1] bcast_S50000x1_S50000x96_0_1
      (broadcastInDim S50000x1 ![0] bcast_S50000_S50000x1_0
        (maximumf (broadcastInDim S50000 ![] bcast_S_S50000 (id (constant S_ .f32 0x3F800000#32)))
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))))))

/-- At the literal references the clip of the counts starts from and ends at, whose buffer types are the values' types,
    the moves between a value's type and its buffer's are the identity. -/
theorem leaf_cst2 {Val : EltTy → Type} (p hd hu) (v : (⟨S_, .f32⟩ : BufTy).Contents Val) :
    (StableHlo.TRef.of (T := ⟨S_, .f32⟩) main_cst_2 p hd hu).ofBuf v = v := rfl
theorem leaf_v13 {Val : EltTy → Type} (p hd hu) (v : (⟨S50000, .f32⟩ : BufTy).Contents Val) :
    (StableHlo.TRef.of (T := ⟨S50000, .f32⟩) main_v13 p hd hu).ofBuf v = v := rfl
theorem top_v14 {Val : EltTy → Type} (p hd hu) (v : (⟨S50000, .f32⟩ : BufTy).Contents Val) :
    (StableHlo.TRef.of (T := ⟨S50000, .f32⟩) main_v14 p hd hu).toBuf v = v := rfl

variable (m : (ℓ : Loc nD τ sig) → Buf (Elt F) ℓ)

set_option maxHeartbeats 4000000 in
/-- The program's result after the lines that follow the region, from what the region leaves in its output array. -/
theorem tail_eq (c : Dev nD) :
    (Pipeline.afterTail₀ cfgs (dats m) 0 (V0 m) [hostOps1, hostOps1_1, hostOps1_2] c main_v18 : FVec F S50000x96 .f32)
      = tailOf (m ((c : Thread nD τ).loc main_arg0)) (Cert.KernelTake.dstOf (m ((c : Thread nD τ).loc main_arg1)))
          ((dats m 0 c).arrAt 7 cfg0.N) := by
  unfold Pipeline.afterTail₀
  simp only [hostOps1, hostOps1_1, hostOps1_2, List.flatten_cons, List.flatten_nil, List.append_nil, List.cons_append, List.nil_append]
  after_results_simp
  have e6 : Pipeline.withArrays (cfgs 0).spec c (V0 m c) (fun w => (dats m 0 c).arrAt w (cfgs 0).N) (Proc.devRef .tc main_v6)
      = (dats m 0 c).arrAt 7 cfg0.N :=
    Pipeline.withArrays_arr spec0 launch0.win.arr_inj c _ _ 7
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have e3 : Pipeline.withArrays (cfgs 0).spec c (V0 m c) (fun w => (dats m 0 c).arrAt w (cfgs 0).N) (Proc.devRef .tc main_v3)
      = Cert.KernelTake.dstOf (m ((c : Thread nD τ).loc main_arg1)) :=
    (Pipeline.withArrays_of_ne _ c (V0 m c) _ main_v3 (by exact (by decide : ∀ w, Pipeline.arrRef spec0 w ≠ main_v3))).trans (Cert.KernelTake.V_v3 m c)
  rw [e6, e0, e3]
  simp only [Cert.KernelTake.ofBuf_toBuf, leaf_cst2, leaf_v13, top_v14]
  rfl

end AnyFloats

variable (m : (ℓ : Loc nD τ sig) → Buf (Elt Ideal) ℓ) (ρ : Dev nD → PrngReg)

/-- THE KERNEL PROGRAM'S RUN, READ: every weakly fair execution terminates with the result at the update of the node
    table from the gated messages of every edge, and the arguments as launched. -/
theorem run : θ_run defs (onTc (τ := τ) (main (F := Ideal))) ⟨m, fun _ => 0, ρ⟩ (fun r => ∀ c : Dev nD,
      r.2.mem ((c.tc : Thread nD τ).loc main_v18)
        = tailOf (F := Ideal) (m ((c : Thread nD τ).loc main_arg0)) (Cert.KernelTake.dstOf (m ((c : Thread nD τ).loc main_arg1))) (Cert.KernelBlocks.G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v18 (Pipeline.mem_restRefs_of main_v18 (by decide) (by decide))).trans
        ((tail_eq m c).trans (congrArg (tailOf (F := Ideal) _ _) (Cert.KernelBlocks.final7 m c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelTail

end
-- ==== Proof.RefGated.lean ====
/-
  The reference's gated messages, read at edge r and feature q.

  The reference concatenates [h[src], h[dst], edge_attr] into one [800000, 256] array, multiplies it by each weight,
  adds the bias, and applies the gate and softplus elementwise. Read at (r, q), each product is a sum over the 256
  concatenated columns, each bias broadcast is the bias at q, and the scalar constants are the zero and the one; so the
  stage is the gated message of row r of the concatenation.
-/
import proofs.«407372_j32066225832046_1_alg».proof.Proof.Gen.ReferenceIdeal.Read
import proofs.«407372_j32066225832046_1_alg».proof.Proof.Gated

noncomputable section

namespace Cert.RefGated

open Cert.ReferenceIdeal Cert.ReferenceIdeal.Gen Cert.ReferenceIdeal.Read Idealize.ShloMosaic Idealize.ShloMosaic.ValueIdx

theorem lidx19 (r : Fin 800000) (q : Fin 96) (k : Fin 256) : lidx_main_v19 (ix2 r q) k = ix2 r k :=
  funext fun a => Fin.ext (by match a with | ⟨0, _⟩ => rfl | ⟨1, _⟩ => rfl)
theorem ridx19 (r : Fin 800000) (q : Fin 96) (k : Fin 256) : ridx_main_v19 (ix2 r q) k = ix2 k q :=
  funext fun a => Fin.ext (by match a with | ⟨0, _⟩ => rfl | ⟨1, _⟩ => rfl)
theorem lidx29 (r : Fin 800000) (q : Fin 96) (k : Fin 256) : lidx_main_v29 (ix2 r q) k = ix2 r k :=
  funext fun a => Fin.ext (by match a with | ⟨0, _⟩ => rfl | ⟨1, _⟩ => rfl)
theorem ridx29 (r : Fin 800000) (q : Fin 96) (k : Fin 256) : ridx_main_v29 (ix2 r q) k = ix2 k q :=
  funext fun a => Fin.ext (by match a with | ⟨0, _⟩ => rfl | ⟨1, _⟩ => rfl)
theorem bidx21 (r : Fin 800000) (q : Fin 96) : idx_main_v20 (idx_main_v21 (ix2 r q)) = ix1 q :=
  funext fun a => Fin.ext (by match a with | ⟨0, _⟩ => rfl)
theorem bidx31 (r : Fin 800000) (q : Fin 96) : idx_main_v30 (idx_main_v31 (ix2 r q)) = ix1 q :=
  funext fun a => Fin.ext (by match a with | ⟨0, _⟩ => rfl)

/-- The edge-gate pre-activation of the reference at (r, q). -/
theorem preE (x0 : (⟨S50000x96, .f32⟩ : BufTy).Contents (Elt Ideal)) (x1 : (⟨S2x800000, .i32⟩ : BufTy).Contents (Elt Ideal))
    (x2 : (⟨S800000x64, .f32⟩ : BufTy).Contents (Elt Ideal)) (x3 : (⟨S256x96, .f32⟩ : BufTy).Contents (Elt Ideal))
    (x4 : (⟨S96, .f32⟩ : BufTy).Contents (Elt Ideal)) (r : Fin 800000) (q : Fin 96) :
    val_main_v22 (F := Ideal) x0 x1 x2 x3 x4 (ix2 r q)
      = Cert.Gated.preAct (val_main_v18 (F := Ideal) x0 x1 x2) x3 x4 r q := by
  rw [val_main_v22_apply, val_main_v19_apply, val_main_v21_apply, val_main_v20_apply, bidx21]
  simp only [lidx19, ridx19]
  rfl

/-- The message pre-activation of the reference at (r, q). -/
theorem preN (x0 : (⟨S50000x96, .f32⟩ : BufTy).Contents (Elt Ideal)) (x1 : (⟨S2x800000, .i32⟩ : BufTy).Contents (Elt Ideal))
    (x2 : (⟨S800000x64, .f32⟩ : BufTy).Contents (Elt Ideal)) (x5 : (⟨S256x96, .f32⟩ : BufTy).Contents (Elt Ideal))
    (x6 : (⟨S96, .f32⟩ : BufTy).Contents (Elt Ideal)) (r : Fin 800000) (q : Fin 96) :
    val_main_v32 (F := Ideal) x0 x1 x2 x5 x6 (ix2 r q)
      = Cert.Gated.preAct (val_main_v18 (F := Ideal) x0 x1 x2) x5 x6 r q := by
  rw [val_main_v32_apply, val_main_v29_apply, val_main_v31_apply, val_main_v30_apply, bidx31]
  simp only [lidx29, ridx29]
  rfl

/-- The reference's gated stage at (r, q) is the gated message of row r of its concatenation. -/
theorem gated_at (x0 : (⟨S50000x96, .f32⟩ : BufTy).Contents (Elt Ideal)) (x1 : (⟨S2x800000, .i32⟩ : BufTy).Contents (Elt Ideal))
    (x2 : (⟨S800000x64, .f32⟩ : BufTy).Contents (Elt Ideal)) (x3 : (⟨S256x96, .f32⟩ : BufTy).Contents (Elt Ideal))
    (x4 : (⟨S96, .f32⟩ : BufTy).Contents (Elt Ideal)) (x5 : (⟨S256x96, .f32⟩ : BufTy).Contents (Elt Ideal))
    (x6 : (⟨S96, .f32⟩ : BufTy).Contents (Elt Ideal)) (r : Fin 800000) (q : Fin 96) :
    val_main_v34 (F := Ideal) x0 x1 x2 x3 x4 x5 x6 (ix2 r q)
      = Cert.Gated.gated (val_main_v18 (F := Ideal) x0 x1 x2) x3 x4 x5 x6 r q := by
  have hE := preE x0 x1 x2 x3 x4 r q
  have hN := preN x0 x1 x2 x5 x6 r q
  simp only [val_main_v34_apply, val_main_v28_apply, val_main_v27_apply, val_main_cst_3_apply, val_main_v26_apply,
    val_main_v25_apply, val_main_cst_apply, val_main_v24_apply, val_main_v23_apply, val_main_v33_apply,
    val_main_call0_v4_apply, val_main_call0_v3_apply, val_main_call0_v2_apply, val_main_call0_cst_apply,
    val_main_call0_v6_apply, val_main_call0_v5_apply, val_main_call0_v11_apply, val_main_call0_v1_apply,
    val_main_call0_v0_apply, val_main_call0_v10_apply, val_main_call0_v9_apply, val_main_call0_v8_apply,
    val_main_call0_v7_apply, hE, hN]
  rfl

end Cert.RefGated

end
-- ==== Proof.Bridge.lean ====
/-
  The kernel program's result is the reference's.

  Under the precondition the rows the kernel's program takes are the rows the reference gathers, so the concatenation the
  region reads is the reference's concatenation, the gated messages the region leaves are the reference's gated
  messages, and the lines after the region are the reference's last lines: the two results are one function of the
  arguments.
-/
import proofs.«407372_j32066225832046_1_alg».proof.Proof.KernelTail
import proofs.«407372_j32066225832046_1_alg».proof.Proof.RefGated

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.Read

section AnyFloats

variable {F : FTy → Type} [FloatOps F]

/-- The rows the kernel's program gathers at the wrapped source endpoints are the reference's first gather. -/
theorem rows_src (h : FVec F S50000x96 .f32) (e : IVec S2x800000 32) :
    Cert.KernelTake.rowsOf h (Cert.KernelTake.srcOf e) = val_main_v10 (F := F) h e := rfl

/-- The rows at the wrapped destination endpoints are the reference's second gather. -/
theorem rows_dst (h : FVec F S50000x96 .f32) (e : IVec S2x800000 32) :
    Cert.KernelTake.rowsOf h (Cert.KernelTake.dstOf e) = val_main_v17 (F := F) h e := rfl

/-- The lines after the kernel's region, applied to the reference's gated messages, are the reference's result. -/
theorem tail_ref (x0 : FVec F S50000x96 .f32) (x1 : IVec S2x800000 32) (x2 : FVec F S800000x64 .f32)
    (x3 : FVec F S256x96 .f32) (x4 : FVec F S96 .f32) (x5 : FVec F S256x96 .f32) (x6 : FVec F S96 .f32) :
    Cert.KernelTail.tailOf x0 (Cert.KernelTake.dstOf x1) (val_main_v34 (F := F) x0 x1 x2 x3 x4 x5 x6)
      = val_main_v46 (F := F) x0 x1 x2 x3 x4 x5 x6 := rfl

end AnyFloats

variable (m : (ℓ : Loc nD τ sig) → Buf (Elt Ideal) ℓ)

/-- Under the precondition's range of the endpoints, the array the first edge window reads is the reference's first gather. -/
theorem src_eq (c : Dev nD)
    (he : ∀ j, -50000 ≤ ((m ((c : Thread nD τ).loc main_arg1) : IVec S2x800000 32) j).toInt ∧ ((m ((c : Thread nD τ).loc main_arg1) : IVec S2x800000 32) j).toInt < 50000) :
    Cert.KernelBlocks.srcRows m c = val_main_v10 (F := Ideal) (m ((c : Thread nD τ).loc main_arg0)) (m ((c : Thread nD τ).loc main_arg1)) :=
  (Cert.KernelTake.V_v4 m c).trans ((Cert.KernelTake.takeOf_eq _ _ (Cert.KernelTake.srcOf_range _ he)).trans (rows_src _ _))

theorem dst_eq (c : Dev nD)
    (he : ∀ j, -50000 ≤ ((m ((c : Thread nD τ).loc main_arg1) : IVec S2x800000 32) j).toInt ∧ ((m ((c : Thread nD τ).loc main_arg1) : IVec S2x800000 32) j).toInt < 50000) :
    Cert.KernelBlocks.dstRows m c = val_main_v17 (F := Ideal) (m ((c : Thread nD τ).loc main_arg0)) (m ((c : Thread nD τ).loc main_arg1)) :=
  (Cert.KernelTake.V_v5 m c).trans ((Cert.KernelTake.takeOf_eq _ _ (Cert.KernelTake.dstOf_range _ he)).trans (rows_dst _ _))

theorem attr_eq (c : Dev nD) : Cert.KernelBlocks.attr m c = m ((c : Thread nD τ).loc main_arg2) := V_main_arg2 m c
theorem wE_eq (c : Dev nD) : Cert.KernelBlocks.wE m c = m ((c : Thread nD τ).loc main_arg3) := V_main_arg3 m c
theorem bE_eq (c : Dev nD) : Cert.KernelBlocks.bE m c = m ((c : Thread nD τ).loc main_arg4) := V_main_arg4 m c
theorem wN_eq (c : Dev nD) : Cert.KernelBlocks.wN m c = m ((c : Thread nD τ).loc main_arg5) := V_main_arg5 m c
theorem bN_eq (c : Dev nD) : Cert.KernelBlocks.bN m c = m ((c : Thread nD τ).loc main_arg6) := V_main_arg6 m c

/-- The concatenation the region reads is the reference's. -/
theorem cat_eq (c : Dev nD)
    (he : ∀ j, -50000 ≤ ((m ((c : Thread nD τ).loc main_arg1) : IVec S2x800000 32) j).toInt ∧ ((m ((c : Thread nD τ).loc main_arg1) : IVec S2x800000 32) j).toInt < 50000) :
    Cert.KernelBlocks.catArr m c
      = val_main_v18 (F := Ideal) (m ((c : Thread nD τ).loc main_arg0)) (m ((c : Thread nD τ).loc main_arg1)) (m ((c : Thread nD τ).loc main_arg2)) := by
  unfold Cert.KernelBlocks.catArr
  rw [src_eq m c he, dst_eq m c he, attr_eq m c]
  rfl

/-- The gated messages the region leaves are the reference's. -/
theorem G_eq (c : Dev nD)
    (he : ∀ j, -50000 ≤ ((m ((c : Thread nD τ).loc main_arg1) : IVec S2x800000 32) j).toInt ∧ ((m ((c : Thread nD τ).loc main_arg1) : IVec S2x800000 32) j).toInt < 50000) :
    Cert.KernelBlocks.G m c
      = val_main_v34 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  funext i
  obtain ⟨r, q, rfl⟩ : ∃ (r : Fin 800000) (q : Fin 96), i = ix2 r q := ⟨i 0, i 1, eq_ix2 i⟩
  rw [Cert.KernelBlocks.G_at, Cert.RefGated.gated_at, cat_eq m c he, wE_eq, bE_eq, wN_eq, bN_eq]

/-- THE KERNEL PROGRAM'S RESULT, under the precondition's range of the endpoints, is the reference's result term. -/
theorem result_eq (c : Dev nD)
    (he : ∀ j, -50000 ≤ ((m ((c : Thread nD τ).loc main_arg1) : IVec S2x800000 32) j).toInt ∧ ((m ((c : Thread nD τ).loc main_arg1) : IVec S2x800000 32) j).toInt < 50000) :
    Cert.KernelTail.tailOf (F := Ideal) (m ((c : Thread nD τ).loc main_arg0)) (Cert.KernelTake.dstOf (m ((c : Thread nD τ).loc main_arg1))) (Cert.KernelBlocks.G m c)
      = val_main_v46 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  rw [G_eq m c he]
  exact tail_ref _ _ _ _ _ _ _

end Cert.Bridge

end
-- ==== Proof.lean ====
/-
  A graph-convolution layer with gated messages: the kernel's program against its jnp reference, over the extended reals.

  Both programs compute, for every edge r with endpoints (src r, dst r), the 256-wide row
  [h[src r], h[dst r], edge_attr r], its two affine images zE = row · W_e + b_e and zN = row · W_n + b_n, the gated
  message gate(zE) · softplus(zN), then for every node the sum of the messages of its incoming edges divided by the
  number of those edges (at least one), added to h.

  The kernel's program gathers the node rows with jnp.take, which replaces a row by a fill constant where the wrapped
  endpoint is out of range; the reference gathers them by plain indexing. The precondition (finite float inputs, and
  every entry of edge_index a valid NumPy row index of h, -50000 ≤ e < 50000) makes the two gathers the same rows. The
  region then computes the messages block by block: 250 grid points of 3200 edges, each a bf16-narrowed matrix product
  (the narrowing is the identity on extended reals) against the reference's one product over all 800000 edges. The only
  facts of arithmetic used are 0 + x = x (a product accumulated into zero), 0 - x = -x (the kernel's negation) and that
  the reference's constant 1.0 is the number one; all three hold at the infinities, so of the precondition only the range
  of the endpoints is used, never the finiteness of the float inputs.

  The three frames are the generated ones (the reference's from its generated run); the statement's idealization
  conjunct is True (the ideal pass rewrote no operation of the kernel).
-/
import proofs.«407372_j32066225832046_1_alg».proof.Defs
import proofs.«407372_j32066225832046_1_alg».proof.Proof.Gen.Kernel
import proofs.«407372_j32066225832046_1_alg».proof.Proof.Gen.Kernel.Skeleton
import proofs.«407372_j32066225832046_1_alg».proof.Proof.Gen.Kernel.Launch
import proofs.«407372_j32066225832046_1_alg».proof.Proof.Gen.Kernel.Points
import proofs.«407372_j32066225832046_1_alg».proof.Proof.Gen.Kernel.Frame
import proofs.«407372_j32066225832046_1_alg».proof.Proof.Gen.KernelIdeal
import proofs.«407372_j32066225832046_1_alg».proof.Proof.Gen.KernelIdeal.Skeleton
import proofs.«407372_j32066225832046_1_alg».proof.Proof.Gen.KernelIdeal.Launch
import proofs.«407372_j32066225832046_1_alg».proof.Proof.Gen.KernelIdeal.Points
import proofs.«407372_j32066225832046_1_alg».proof.Proof.Gen.KernelIdeal.Frame
import proofs.«407372_j32066225832046_1_alg».proof.Proof.Gen.ReferenceIdeal
import proofs.«407372_j32066225832046_1_alg».proof.Proof.Gen.ReferenceIdeal.Run
import proofs.«407372_j32066225832046_1_alg».proof.Proof.Gen.ReferenceIdeal.Read
import proofs.«407372_j32066225832046_1_alg».proof.Proof.Gen.Pre_finite_inputs
import proofs.«407372_j32066225832046_1_alg».proof.Proof.Range
import proofs.«407372_j32066225832046_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's program ends at the reference's result term of its own arguments (the gathers agree under the
    precondition's range of the endpoints), the reference at that term of arguments that agree. -/
theorem algebraic : Cert.algebraic_KernelIdeal_ReferenceIdeal := by
  intro m ρ m' ρ' hpre hagree
  refine ⟨fun c => Cert.ReferenceIdeal.Read.val_main_v46 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩) (Cert.KernelTail.run m ρ)
    exact Cert.Bridge.result_eq m c fun j => Cert.Range.index_range _ _ _ _ _ _ _ (hpre c) j
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
